-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x1024 .f32) (main_arg1 : IVec S32768 32) (main_arg2 : IVec S32768 32) (main_arg3 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S32768x1024 : Shape := ⟨2, ![32768, 1024]⟩
abbrev S32768 : Shape := ⟨1, ![32768]⟩
abbrev S1024 : Shape := ⟨1, ![1024]⟩
abbrev S32768x1 : Shape := ⟨2, ![32768, 1]⟩
abbrev S1x1024 : Shape := ⟨2, ![1, 1024]⟩
abbrev S1024x1024 : Shape := ⟨2, ![1024, 1024]⟩
abbrev S1024x1 : Shape := ⟨2, ![1024, 1]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S32768, .i32⟩
  | .hbm, ⟨3, _⟩ => ⟨S1024, .f32⟩
  | .hbm, ⟨4, _⟩ => ⟨S32768x1, .i32⟩
  | .hbm, ⟨5, _⟩ => ⟨S32768x1, .i32⟩
  | .hbm, ⟨6, _⟩ => ⟨S1x1024, .f32⟩
  | .hbm, ⟨7, _⟩ => ⟨S32768x1, .f32⟩
  | .hbm, ⟨8, _⟩ => ⟨S32768, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S1x1024, .f32⟩
  | .local _ .vmem, ⟨7, _⟩ => ⟨S1024x1, .f32⟩
  | .local _ .vmem, ⟨8, _⟩ => ⟨S1024x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768_S32768x1 : S32768.ShapeCasts S32768x1
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1024_d1_w32 : S1024x1024.Iotas .tc 32 [1]
  broadcasts_S1024x1_S1024x1024 : S1024x1.Broadcasts S1024x1024
  natLt_1_32 : 1 < 32
  reduces_S1024x1024_S1024 : S1024x1024.Reduces [1] S1024
  shapeCasts_S1024_S1024x1 : S1024.ShapeCasts S1024x1
  broadcasts_S1x1024_S1024x1024 : S1x1024.Broadcasts S1024x1024
  shapeCasts_S32768x1_S32768 : S32768x1.ShapeCasts S32768
  reducesTo_S32768_S_d0 : S32768.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S32768x1.size a
  hwx0_1 : ∀ i : grid0.Coords, EltTy.bits .i32 = 32 ∨ (Rect.block (s := S32768x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .i32 = 32 ∨ (Rect.block (s := S32768x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S32768x1.size a
  hwx0_4 : ∀ i : grid0.Coords, EltTy.bits .f32 = 32 ∨ (Rect.block (s := S32768x1) S1024x1.size (cc0_transform_4 i) (hinb0_4 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768 : Shape := ⟨1, ![32768]⟩
abbrev S1024 : Shape := ⟨1, ![1024]⟩
abbrev S_ : Shape := ⟨0, ![]⟩
abbrev S32768x1 : Shape := ⟨2, ![32768, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S32768, .i32⟩
  | .hbm, ⟨3, _⟩ => ⟨S1024, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .i1⟩
  | .hbm, ⟨8, _⟩ => ⟨S_, .f32⟩
  | .hbm, ⟨9, _⟩ => ⟨S32768, .f32⟩
  | .hbm, ⟨10, _⟩ => ⟨S32768, .i1⟩
  | .hbm, ⟨11, _⟩ => ⟨S32768, .i1⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S_, .f32⟩
  | .hbm, ⟨16, _⟩ => ⟨S32768, .f32⟩
  | .hbm, ⟨17, _⟩ => ⟨S32768, .f32⟩
  | .hbm, ⟨18, _⟩ => ⟨S_, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S32768x1, .i32⟩
  | .hbm, ⟨23, _⟩ => ⟨S1x1024, .i32⟩
  | .hbm, ⟨24, _⟩ => ⟨S32768x1024, .i32⟩
  | .hbm, ⟨25, _⟩ => ⟨S32768x1024, .i32⟩
  | .hbm, ⟨26, _⟩ => ⟨S32768x1024, .i1⟩
  | .hbm, ⟨27, _⟩ => ⟨S32768x1024, .f32⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S1x1024, .i32⟩
  | .hbm, ⟨33, _⟩ => ⟨S32768x1024, .i32⟩
  | .hbm, ⟨34, _⟩ => ⟨S32768x1024, .i32⟩
  | .hbm, ⟨35, _⟩ => ⟨S32768x1024, .i1⟩
  | .hbm, ⟨36, _⟩ => ⟨S32768x1024, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S_, .f32⟩
  | .hbm, ⟨53, _⟩ => ⟨S32768, .f32⟩
  | .hbm, ⟨54, _⟩ => ⟨S32768, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S_, .f32⟩
  | .hbm, ⟨71, _⟩ => ⟨S32768, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_call3_cst : Ref sig .tc := ⟨.hbm, 50, rfl⟩
abbrev main_call3_v0 : Ref sig .tc := ⟨.hbm, 51, rfl⟩
abbrev main_call3_cst_0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_cst_1 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_6 : Ref sig .tc := ⟨.hbm, 70, rfl⟩
abbrev main_v32 : Ref sig .tc := ⟨.hbm, 71, rfl⟩
abbrev main_cst_7 : Ref sig .tc := ⟨.hbm, 72, rfl⟩
abbrev main_v33 : Ref sig .tc := ⟨.hbm, 73, rfl⟩
abbrev main_cst_8 : Ref sig .tc := ⟨.hbm, 74, rfl⟩
abbrev main_v34 : Ref sig .tc := ⟨.hbm, 75, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  bcast_S_S32768x1 : S_.BroadcastsInDim S32768x1 (![] : Fin 0 → Fin S32768x1.rank)
  bcast_S_S32768x1024 : S_.BroadcastsInDim S32768x1024 (![] : Fin 0 → Fin S32768x1024.rank)
  reducesTo_S32768x1024_S32768_d1 : S32768x1024.ReducesTo [1] S32768
  h_S_ : 0 < S_.numel
  bcast_S1024_S1x1024_1 : S1024.BroadcastsInDim S1x1024 (![1] : Fin 1 → Fin S1x1024.rank)
  reducesTo_S32768_S_d0 : S32768.ReducesTo [0] S_

variable [Facts₀]

class Facts : Prop extends Facts₀ where

variable [Facts]
-- ==== Proof.RowLoss.lean ====
/-
  The loss of one row, on the extended reals.

  A row has 1024 logits `x k`, a class word `t`, an age word `a`, and shares the class weights `w k`. Its soft target
  puts `1 − δ` on class `t` and `δ` on class `t + 1`, where `δ = (a − 50) · 0.1` when `50 < a < 60` and `δ = 0` otherwise
  (`moved`, `soft`). Its log-probabilities are the log-softmax of the halved logits, taken the stable way: with
  `y k = x k · ½` and `M = max_k y k`, `logp k = (y k − M) − log ∑_k' exp (y k' − M)` (`scaled`, `top`, `shifted`, `mass`,
  `logp`). The row's loss is `∑_k ((0 − soft k) · logp k) · w k` (`rowLoss`), and `rowLosses` is the vector of the 32768
  rows' losses as a function of the four argument arrays.

  Every float literal is kept as the extended real its f32 word denotes; none is evaluated here, the same words stand
  on both sides of the equivalence.
-/
import Idealize.ShloMosaic.PureOps.Ideal
import Idealize.ShloMosaic.Lib.ValueIdx

noncomputable section

namespace Cert.SmoothedLoss

open Idealize.ShloMosaic

/-- The age word as an extended real (read signed). -/
def age (a : BitVec 32) : EReal := FloatOps.sitofp (F := Ideal) .f32 a

/-- The mass a row of age word `a` moves from its class to the next: `(a − 50) · 0.1` when `50 < a < 60`, else `0`. -/
def moved (a : BitVec 32) : EReal :=
  Scalar.select
    (IntOp.andi (Ideal.cmp .ogt (age a) (Ideal.ofBits .f32 0x42480000#32)) (Ideal.cmp .olt (age a) (Ideal.ofBits .f32 0x42700000#32)))
    ((age a - Ideal.ofBits .f32 0x42480000#32) * Ideal.ofBits .f32 0x3DCCCCCD#32)
    (Ideal.ofBits .f32 0x00000000#32)

/-- `1` where column `k` is the class word `t`, else `0`: the comparison's bit widened to a word and read signed. -/
def hot (t : BitVec 32) (k : Fin 1024) : EReal :=
  FloatOps.sitofp (F := Ideal) .f32 ((IntOp.cmpi .eq (BitVec.ofNat 32 k.val) t).setWidth 32)

/-- The soft target: `1 − δ` on the class, `δ` on the next class. -/
def soft (t a : BitVec 32) (k : Fin 1024) : EReal :=
  hot t k * (Ideal.ofBits .f32 0x3F800000#32 - moved a) + hot (IntOp.addi t 1#32) k * moved a

/-- The logits at temperature 2: each times one half. -/
def scaled (x : Fin 1024 → EReal) (k : Fin 1024) : EReal := x k * Ideal.ofBits .f32 0x3F000000#32

/-- The row's largest scaled logit: the fold of `max` from `−∞` over the columns. -/
def top (x : Fin 1024 → EReal) : EReal :=
  (Finset.univ : Finset (Fin 1024)).fold max (Ideal.ofBits .f32 0xFF800000#32) (scaled x)

/-- A scaled logit less the row's largest. -/
def shifted (x : Fin 1024 → EReal) (k : Fin 1024) : EReal := scaled x k - top x

/-- The softmax's denominator after the shift. -/
def mass (x : Fin 1024 → EReal) : EReal := ∑ k : Fin 1024, Ideal.exp (shifted x k)

/-- The log-softmax of the scaled logits. -/
def logp (x : Fin 1024 → EReal) (k : Fin 1024) : EReal := shifted x k - Ideal.log (mass x)

/-- The row's loss: the weighted cross-entropy of the soft target against the log-softmax. -/
def rowLoss (x : Fin 1024 → EReal) (t a : BitVec 32) (w : Fin 1024 → EReal) : EReal :=
  ∑ k : Fin 1024, ((Ideal.ofBits .f32 0x00000000#32 - soft t a k) * logp x k) * w k

/-- The losses of the 32768 rows as a vector: row `r` of the logits, the class and age words of row `r`, the weights. -/
def rowLosses (x : (⟨2, ![32768, 1024]⟩ : Shape).Idx → EReal) (t a : (⟨1, ![32768]⟩ : Shape).Idx → BitVec 32)
    (w : (⟨1, ![1024]⟩ : Shape).Idx → EReal) : (⟨1, ![32768]⟩ : Shape).Idx → EReal :=
  fun i => rowLoss (fun k => x (ValueIdx.ix2 ⟨(i 0).val, (i 0).isLt⟩ k)) (t i) (a i) (fun k => w (ValueIdx.ix1 k))

end Cert.SmoothedLoss

end
-- ==== Proof.LibColumnLayout.lean ====
/-
  Column vectors read at an index given by coordinates: an `[a]` vector viewed as the column `[a, 1]` and back, and a
  column `[a, 1]` broadcast along its rows to `[a, b]`. These are the keepdims forms of a row reduction: the reduction
  leaves one value per row, the cast makes it a column, the broadcast spreads it over the row again. Each lemma is the
  library's index lemma for the operation (`shapeCast_apply`, `broadcastTo_apply`) with both indices written by
  coordinates (`ix1`, `ix2`), so that it applies to a printed operation by unification, at any extents.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` vector cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to the vector `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` array along its rows (axis 1): the source index over the result index `p` with coordinate `k` on
    the dropped axis is `(p, k)`. -/
theorem lift_row {a b : ℕ} (h : (⟨2, ![a, b]⟩ : Shape).Reduces [1] ⟨1, ![a]⟩) (p : Fin a) (k : Fin b) :
    h.lift (ix1 p) k = ix2 p k := by
  funext d
  apply Fin.ext
  match d with
  | ⟨0, _⟩ => rfl
  | ⟨1, _⟩ => rfl

end Idealize.ShloMosaic.ValueIdx
-- ==== Proof.KernelRow.lean ====
/-
  What the kernel's body stores, row by row.

  The body works on a block of 1024 rows: the logits `x0` (`[1024, 1024]`), the class words `x1` and the age words `x2`
  (columns `[1024, 1]`) and the class weights `x3` (one row `[1, 1024]`). Its one store writes a column `[1024, 1]`
  whose entry of row `p` is the row's loss (`SmoothedLoss.rowLoss`) of row `p` of `x0`, the words `x1 (p, 0)` and
  `x2 (p, 0)`, and the weights' row (`stored_row`). The steps: a reduction along the rows read at a row is a sum, or a
  fold of `max`, over that row's columns; a column cast or broadcast reads the column's entry of the row; everything
  else in the body is pointwise, so it reads at `(p, k)` what the specification says at column `k`.
-/
import proofs.«177344_j46342697124317_1_alg».proof.Proof.Gen.KernelIdeal.Skeleton
import proofs.«177344_j46342697124317_1_alg».proof.Proof.RowLoss
import proofs.«177344_j46342697124317_1_alg».proof.Proof.LibColumnLayout
import Idealize.ShloMosaic.PureOps.Ideal.Laws
import Idealize.ShloMosaic.Lib.Pipeline.Value
import Idealize.ShloMosaic.Lib.ValueLayout

noncomputable section

namespace Cert.KernelIdeal.Row

open Idealize.ShloMosaic Idealize.ShloMosaic.ValueIdx Cert.KernelIdeal Cert.KernelIdeal.Gen Cert.SmoothedLoss

/-! ## The two row reductions at a row -/

/-- The sum along the rows, read at row `p`, is the sum of that row's entries. -/
theorem rowSum_apply (v : FVec Ideal S1024x1024 .f32) (p : Fin 1024) :
    multiReduction .add [1] S1024 v 0x00000000#32 reduces_S1024x1024_S1024 (.inl rfl) rfl (ix1 p)
      = ∑ k : Fin 1024, v (ix2 p k) :=
  (Ideal.multiReduction_add_single v 0x00000000#32 reduces_S1024x1024_S1024 (.inl rfl) rfl (ix1 p)).trans
    (Finset.sum_congr rfl fun k _ => congrArg v (lift_row reduces_S1024x1024_S1024 p k))

/-- The maximum along the rows, read at row `p`, is the fold of `max` from `−∞` over that row's entries. -/
theorem rowMax_apply (v : FVec Ideal S1024x1024 .f32) (p : Fin 1024) :
    multiReduction .maximumf [1] S1024 v 0xFF800000#32 reduces_S1024x1024_S1024 (.inl rfl) rfl (ix1 p)
      = (Finset.univ : Finset (Fin 1024)).fold max (Ideal.ofBits .f32 0xFF800000#32) (fun k => v (ix2 p k)) :=
  (Ideal.multiReduction_maximumf_single v 0xFF800000#32 reduces_S1024x1024_S1024 (.inl rfl) rfl (ix1 p)).trans
    (congrArg (fun f => (Finset.univ : Finset (Fin 1024)).fold max (Ideal.ofBits .f32 0xFF800000#32) f)
      (funext fun k => congrArg v (lift_row reduces_S1024x1024_S1024 p k)))

/-! ## The body's values at an entry -/

/-- The halved logits. -/
theorem halved_apply (x0 : Vec Ideal S1024x1024 .f32) (p k : Fin 1024) :
    k0_pay4 (F := Ideal) x0 (ix2 p k) = scaled (fun k => x0 (ix2 p k)) k := rfl

/-- The row maxima, as a column: the entry of row `p` is the largest halved logit of that row. -/
theorem rowTop_apply (x0 : Vec Ideal S1024x1024 .f32) (p : Fin 1024) (u : Fin 1) :
    k0_pay5 (F := Ideal) x0 (ix2 p u) = top (fun k => x0 (ix2 p k)) := by
  unfold k0_pay5
  dsimp only
  rw [shapeCast_a_a1_apply, rowMax_apply]
  rfl

/-- The row maxima spread over the rows again. -/
theorem rowTopSpread_apply (x0 : Vec Ideal S1024x1024 .f32) (p k : Fin 1024) :
    k0_pay6 (F := Ideal) x0 (ix2 p k) = top (fun k => x0 (ix2 p k)) := by
  unfold k0_pay6
  rw [broadcastTo_a1_ab_apply, rowTop_apply]

/-- The soft target of row `p` at column `k`. -/
theorem target_apply (x1 x2 : Vec Ideal S1024x1 .i32) (p k : Fin 1024) :
    k0_pay3 (F := Ideal) x1 x2 (ix2 p k) = soft (x1 (ix2 p 0)) (x2 (ix2 p 0)) k := by
  unfold k0_pay3
  dsimp only
  simp only [shapeCast_self]
  show FloatOps.sitofp (F := Ideal) .f32 ((IntOp.cmpi .eq (iota .tc S1024x1024 32 [1] iota_S1024x1024_d1_w32 (ix2 p k)) (broadcastTo S1024x1024 x1 broadcasts_S1024x1_S1024x1024 (ix2 p k))).setWidth 32)
        * broadcastTo S1024x1024 (subf (broadcast S1024x1 (Scalar.ofBits .f32 0x3F800000#32)) _) broadcasts_S1024x1_S1024x1024 (ix2 p k)
      + FloatOps.sitofp (F := Ideal) .f32 ((IntOp.cmpi .eq (iota .tc S1024x1024 32 [1] iota_S1024x1024_d1_w32 (ix2 p k)) (broadcastTo S1024x1024 (addi x1 (broadcast S1024x1 1#32)) broadcasts_S1024x1_S1024x1024 (ix2 p k))).setWidth 32)
        * broadcastTo S1024x1024 _ broadcasts_S1024x1_S1024x1024 (ix2 p k) = _
  rw [broadcastTo_a1_ab_apply, broadcastTo_a1_ab_apply, broadcastTo_a1_ab_apply, broadcastTo_a1_ab_apply, iota_single_apply]
  rfl

/-- The softmax's denominator of row `p`, as the body takes it: the row sum of the exponentials, cast to a column. -/
theorem mass_apply (x0 : Vec Ideal S1024x1024 .f32) (p : Fin 1024) (u : Fin 1) :
    shapeCast S1024x1 (multiReduction .add [1] S1024 (exp (subf (k0_pay4 (F := Ideal) x0) (k0_pay6 x0))) 0x00000000#32
        reduces_S1024x1024_S1024 (.inl rfl) rfl) shapeCasts_S1024_S1024x1 (ix2 p u)
      = mass (fun k => x0 (ix2 p k)) := by
  rw [shapeCast_a_a1_apply, rowSum_apply]
  unfold mass
  refine Finset.sum_congr rfl fun k _ => ?_
  show Ideal.exp (k0_pay4 (F := Ideal) x0 (ix2 p k) - k0_pay6 (F := Ideal) x0 (ix2 p k)) = _
  rw [rowTopSpread_apply]
  rfl

/-- The weights' row, unchanged by its cast. -/
theorem weights_eq (x3 : Vec Ideal S1x1024 .f32) : k0_pay2 (F := Ideal) x3 = x3 := by
  unfold k0_pay2
  exact shapeCast_self _ _

/-! ## The stored column -/

/-- THE STORE: the entry of row `p` is the loss of that row. -/
theorem stored_row (x0 : Vec Ideal S1024x1024 .f32) (x1 x2 : Vec Ideal S1024x1 .i32) (x3 : Vec Ideal S1x1024 .f32)
    (p : Fin 1024) (u : Fin 1) :
    k0_pay1 (F := Ideal) (k0_pay2 x3) (k0_pay3 x1 x2) (k0_pay4 x0) (k0_pay5 x0) (k0_pay6 x0) (ix2 p u)
      = rowLoss (fun k => x0 (ix2 p k)) (x1 (ix2 p 0)) (x2 (ix2 p 0)) (fun k => x3 (ix2 0 k)) := by
  unfold k0_pay1
  dsimp only
  rw [shapeCast_a_a1_apply, rowSum_apply, weights_eq]
  unfold rowLoss
  refine Finset.sum_congr rfl fun k _ => ?_
  show (Ideal.ofBits .f32 0x00000000#32 - k0_pay3 (F := Ideal) x1 x2 (ix2 p k))
      * ((k0_pay4 (F := Ideal) x0 (ix2 p k)
            - broadcastTo S1024x1024 (k0_pay5 (F := Ideal) x0) broadcasts_S1024x1_S1024x1024 (ix2 p k))
          - Ideal.log (broadcastTo S1024x1024
              (shapeCast S1024x1 (multiReduction .add [1] S1024 (exp (subf (k0_pay4 (F := Ideal) x0) (k0_pay6 x0))) 0x00000000#32
                reduces_S1024x1024_S1024 (.inl rfl) rfl) shapeCasts_S1024_S1024x1)
              broadcasts_S1024x1_S1024x1024 (ix2 p k)))
      * broadcastTo S1024x1024 x3 broadcasts_S1x1024_S1024x1024 (ix2 p k) = _
  rw [target_apply, broadcastTo_a1_ab_apply, rowTop_apply, broadcastTo_a1_ab_apply, mass_apply, broadcastTo_1b_ab_apply]
  rfl

end Cert.KernelIdeal.Row

end
-- ==== Proof.KernelValue.lean ====
/-
  What the kernel's program returns.

  The grid has 32 points; point `t` takes block row `t` (rows `1024 t … 1024 t + 1023`) of the logits and of the two
  word columns, the one block of the weights, and writes block row `t` of the result column. By `Row.stored_row` the
  entry it writes for local row `p` is the loss of global row `1024 t + p` (`stored_block`, `flushed_eq`); the 32 blocks
  tile the column (`covered`), so after the region the column holds every row's loss (`final_col`). The three casts
  before the region only re-view the argument vectors as columns or as one row, and the cast after it views the column
  as a vector again, so that vector is `SmoothedLoss.rowLosses` of the four arguments (`rows_eq`); the program's result
  is its sum from `0` divided by `32768` (`result_eq`, `run`).
-/
import proofs.«177344_j46342697124317_1_alg».proof.Proof.Gen.KernelIdeal.Frame
import proofs.«177344_j46342697124317_1_alg».proof.Proof.KernelRow
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.LossValue

open Cert.KernelIdeal Cert.KernelIdeal.Gen Cert.KernelIdeal.Row Idealize.ShloMosaic.ValueIdx Cert.SmoothedLoss

variable (m : (ℓ : Loc nD τ sig) → Buf (Elt Ideal) ℓ) (ρ : Dev nD → PrngReg)

/-! ## The blocks -/

theorem zero_off : (![0, 0] : Fin 2 → Nat) = fun _ => 0 := funext fun a => by fin_cases a <;> rfl

/-- The grid has 32 points. -/
theorem point_lt (t : Fin cfg0.N) : t.val < 32 :=
  lt_of_lt_of_eq t.isLt (show cfg0.N = 32 from N_0)

/-- The block indices over the grid: point `t` takes block row `t` of the logits, of the two word columns and of the
    result column, and the one block of the weights. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The global row of local row `p` of block row `t`. -/
def rowOf (t : Fin cfg0.N) (p : Fin 1024) : Fin 32768 :=
  ⟨t.val * 1024 + p.val, by have := point_lt t; have := p.isLt; omega⟩

/-- The logits' block at point `t` is rows `1024 t …` of the logits. -/
theorem logits_block (c : Dev nD) (t : Fin cfg0.N) (p k : Fin 1024) :
    (iblk m c 0 t : Vec Ideal S1024x1024 .f32) (ix2 p k)
      = (V m c main_arg0 : S32768x1024.Idx → EReal) (ix2 (rowOf t p) k) := by
  obtain ⟨e0, e1, -⟩ := block_indices t
  unfold iblk
  rw [View.read_apply]
  show V m c main_arg0 _ = V m c main_arg0 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * k.val = k.val; rw [e1]; omega

/-- The class words' block at point `t`. -/
theorem classes_block (c : Dev nD) (t : Fin cfg0.N) (p : Fin 1024) (u : Fin 1) :
    (iblk m c 1 t : Vec Ideal S1024x1 .i32) (ix2 p u)
      = (V m c main_v0 : S32768x1.Idx → BitVec 32) (ix2 (rowOf t p) (0 : Fin 1)) := by
  obtain ⟨-, -, e0, e1, -⟩ := block_indices t
  unfold iblk
  rw [View.read_apply]
  show V m c main_v0 _ = V m c main_v0 _
  congr 1
  funext a
  apply Fin.ext
  match a with
  | ⟨0, _⟩ => show win0_1.index t (0 : Fin 2) * 1024 + 1 * p.val = t.val * 1024 + p.val; rw [e0]; omega
  | ⟨1, _⟩ => show win0_1.index t (1 : Fin 2) * 1 + 1 * u.val = 0; rw [e1]; omega

/-- The age words' block at point `t`. -/
theorem ages_block (c : Dev nD) (t : Fin cfg0.N) (p : Fin 1024) (u : Fin 1) :
    (iblk m c 2 t : Vec Ideal S1024x1 .i32) (ix2 p u)
      = (V m c main_v1 : S32768x1.Idx → BitVec 32) (ix2 (rowOf t p) (0 : Fin 1)) := by
  obtain ⟨-, -, -, -, e0, e1, -⟩ := block_indices t
  unfold iblk
  rw [View.read_apply]
  show V m c main_v1 _ = V m c main_v1 _
  congr 1
  funext a
  apply Fin.ext
  match a with
  | ⟨0, _⟩ => show win0_2.index t (0 : Fin 2) * 1024 + 1 * p.val = t.val * 1024 + p.val; rw [e0]; omega
  | ⟨1, _⟩ => show win0_2.index t (1 : Fin 2) * 1 + 1 * u.val = 0; rw [e1]; omega

/-- The weights' block at every point is the weights' one row. -/
theorem weights_block (c : Dev nD) (t : Fin cfg0.N) (u : Fin 1) (k : Fin 1024) :
    (iblk m c 3 t : Vec Ideal S1x1024 .f32) (ix2 u k)
      = (V m c main_v2 : S1x1024.Idx → EReal) (ix2 (0 : Fin 1) k) := by
  obtain ⟨-, -, -, -, -, -, e0, e1, -⟩ := block_indices t
  unfold iblk
  rw [View.read_apply]
  show V m c main_v2 _ = V m c main_v2 _
  congr 1
  funext a
  apply Fin.ext
  match a with
  | ⟨0, _⟩ => show win0_3.index t (0 : Fin 2) * 1 + 1 * u.val = 0; rw [e0]; omega
  | ⟨1, _⟩ => show win0_3.index t (1 : Fin 2) * 1024 + 1 * k.val = k.val; rw [e1]; omega

/-! ## The column after the region -/

/-- The loss of global row `r`, of the arrays as the region finds them. -/
def lossAt (c : Dev nD) (r : Fin 32768) : EReal :=
  rowLoss (fun k => (V m c main_arg0 : S32768x1024.Idx → EReal) (ix2 r k))
    ((V m c main_v0 : S32768x1.Idx → BitVec 32) (ix2 r (0 : Fin 1)))
    ((V m c main_v1 : S32768x1.Idx → BitVec 32) (ix2 r (0 : Fin 1)))
    (fun k => (V m c main_v2 : S1x1024.Idx → EReal) (ix2 (0 : Fin 1) k))

/-- The result column: every row's loss. -/
def lossCol (c : Dev nD) : S32768x1.Idx → EReal := fun i => lossAt m c ⟨(i 0).val, idx2_lt0 i⟩

/-- What the body leaves in the result's block at point `t`: the losses of rows `1024 t …`. -/
theorem stored_block (c : Dev nD) (t : Fin cfg0.N) :
    (out0_4 (F := Ideal) (iblk m c 0 t) (iblk m c 1 t) (iblk m c 2 t) (iblk m c 3 t) : S1024x1.Idx → EReal)
      = fun j => lossAt m c (rowOf t (j 0)) := by
  unfold out0_4
  rw [View.canon_unit_zero zero_off]
  simp only [View.ld_unit_zero (S := S1024x1024) zero_off, View.ld_unit_zero (S := S1024x1) zero_off,
    View.ld_unit_zero (S := S1x1024) zero_off]
  funext j
  obtain ⟨p, u, rfl⟩ : ∃ (p : Fin 1024) (u : Fin 1), j = ix2 p u := ⟨j 0, j 1, eq_ix2 j⟩
  refine (stored_row (iblk m c 0 t) (iblk m c 1 t) (iblk m c 2 t) (iblk m c 3 t) p u).trans ?_
  unfold lossAt
  rw [classes_block, ages_block]
  refine congrArg₂ (fun f g => rowLoss f _ _ g) (funext fun k => logits_block m c t p k) (funext fun k => weights_block m c t 0 k)

/-- WHAT POINT `t` WRITES BACK is block `t` of the result column. -/
theorem flushed_eq (c : Dev nD) (t : Fin cfg0.N) :
    (dats m 0 c).flushed 4 t = ((cfg0.win 4).blk t).view.read (Elt Ideal) (lossCol m c) := by
  show (cfg0.win 4).cut (grid0.coords t) ((dats m 0 c).after 4 t) = _
  rw [after0_4, stored_block]
  obtain ⟨-, -, -, -, -, -, -, -, e0, e1⟩ := block_indices t
  funext j
  show lossAt m c (rowOf t (j 0)) = lossAt m c _
  refine congrArg (lossAt m c) (Fin.ext ?_)
  show t.val * 1024 + (j 0).val = win0_4.index t (0 : Fin 2) * 1024 + 1 * (j 0).val
  rw [e0]; omega

/-- An index of the column is in point `t`'s block iff each coordinate is in the block's range on its axis. -/
theorem mem_block (t : Fin cfg0.N) (i : S32768x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3).slice (win0_4.rect t)).set ↔ _
  rw [View.set_slice_whole, Rect.mem_set_unit]
  exact Iff.rfl

/-- The 32 blocks tile the column: row `r` is in the block of point `r / 1024`. -/
theorem covered (i : S32768x1.Idx) :
    ∃ t : Fin cfg0.N, (cfg0.win 4).flush t = true ∧ i ∈ ((cfg0.win 4).blk t).view.set := by
  have hi0 : (i 0).val < 32768 := (i 0).isLt
  have hi1 : (i 1).val < 1 := (i 1).isLt
  let t : Fin cfg0.N := ⟨(i 0).val / 1024, by rw [show cfg0.N = 32 from N_0]; omega⟩
  obtain ⟨-, -, -, -, -, -, -, -, e0, e1⟩ := block_indices t
  have ht : t.val = (i 0).val / 1024 := rfl
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 1 ≤ (i 1).val ∧ (i 1).val < win0_4.index t (1 : Fin 2) * 1 + 1; rw [e1]; omega

/-- THE COLUMN after the region holds every row's loss. -/
theorem final_col (c : Dev nD) : (dats m 0 c).arrAt 4 cfg0.N = lossCol m c :=
  (dats m 0 c).arrAt_eq_of_cover 4 (lossCol m c) (fun t _ => flushed_eq m c t) covered

/-! ## The casts before the region -/

/-- The class words as the region finds them: the argument vector viewed as a column. -/
theorem classes_eq (c : Dev nD) : (V m c main_v0 : S32768x1.Idx → BitVec 32)
    = shapeCast S32768x1 (m ((c : Thread nD τ).loc main_arg1) : S32768.Idx → BitVec 32) shapeCasts_S32768_S32768x1 := by
  show StableHlo.after hostOps0 (fun b => m (c, b)) (Proc.devRef .tc main_v0) = _
  after_results
  rfl

/-- The age words as the region finds them: the argument vector viewed as a column. -/
theorem ages_eq (c : Dev nD) : (V m c main_v1 : S32768x1.Idx → BitVec 32)
    = shapeCast S32768x1 (m ((c : Thread nD τ).loc main_arg2) : S32768.Idx → BitVec 32) shapeCasts_S32768_S32768x1 := by
  show StableHlo.after hostOps0 (fun b => m (c, b)) (Proc.devRef .tc main_v1) = _
  after_results
  rfl

/-- The weights as the region finds them: the argument vector viewed as one row. -/
theorem weights_eq (c : Dev nD) : (V m c main_v2 : S1x1024.Idx → EReal)
    = shapeCast S1x1024 (m ((c : Thread nD τ).loc main_arg3) : S1024.Idx → EReal) shapeCasts_S1024_S1x1024 := by
  show StableHlo.after hostOps0 (fun b => m (c, b)) (Proc.devRef .tc main_v2) = _
  after_results
  rfl

/-- The loss of global row `r` in terms of the program's arguments. -/
theorem lossAt_eq (c : Dev nD) (r : Fin 32768) :
    lossAt m c r = rowLosses (m ((c : Thread nD τ).loc main_arg0)) (m ((c : Thread nD τ).loc main_arg1))
      (m ((c : Thread nD τ).loc main_arg2)) (m ((c : Thread nD τ).loc main_arg3)) (ix1 r) := by
  unfold lossAt rowLosses
  rw [classes_eq, ages_eq, weights_eq, V_main_arg0, shapeCast_a_a1_apply, shapeCast_a_a1_apply]
  simp only [shapeCast_a_1a_apply]

/-- The result column viewed as a vector again is the vector of the rows' losses. -/
theorem rows_eq (c : Dev nD) :
    shapeCast S32768 (lossCol m c) shapeCasts_S32768x1_S32768
      = rowLosses (m ((c : Thread nD τ).loc main_arg0)) (m ((c : Thread nD τ).loc main_arg1))
          (m ((c : Thread nD τ).loc main_arg2)) (m ((c : Thread nD τ).loc main_arg3)) := by
  funext i
  obtain ⟨r, rfl⟩ : ∃ r : Fin 32768, i = ix1 r := ⟨i 0, eq_ix1 i⟩
  rw [shapeCast_a1_a_apply]
  exact lossAt_eq m c r

/-! ## The lines after the region, and the run -/

/-- The mean of the rows' losses as the program takes it: their sum from `0`, divided by `32768`. -/
def meanOf (rows : S32768.Idx → EReal) : S_.Idx → EReal :=
  Host.divf (F := Ideal) (Host.reduceAdd (F := Ideal) rows (constant (F := Ideal) S_ .f32 0x00000000#32) reducesTo_S32768_S_d0 h_S_)
    (constant (F := Ideal) S_ .f32 0x47000000#32)

/-- THE RESULT: the mean of the rows' losses of the arguments. -/
theorem result_eq (c : Dev nD) :
    Pipeline.afterTail₀ cfgs (dats m) 0 (V0 m) [hostOps1] c main_v6
      = meanOf (rowLosses (m ((c : Thread nD τ).loc main_arg0)) (m ((c : Thread nD τ).loc main_arg1))
          (m ((c : Thread nD τ).loc main_arg2)) (m ((c : Thread nD τ).loc main_arg3))) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v3)
      = lossCol m c from (Pipeline.withArrays_arr spec0 launch0.win.arr_inj c _ _ 4).trans (final_col m c)]
  unfold meanOf
  rw [← rows_eq m c]
  rfl

/-- THE RUN, read: on every device the program ends with its result at the mean of the rows' losses of the arguments, and
    the arguments unchanged. -/
theorem run : θ_run defs (onTc (τ := τ) (main (F := Ideal))) ⟨m, fun _ => 0, ρ⟩ fun r => ∀ c : Dev nD,
      r.2.mem ((c.tc : Thread nD τ).loc main_v6)
        = meanOf (rowLosses (m ((c : Thread nD τ).loc main_arg0)) (m ((c : Thread nD τ).loc main_arg1))
            (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.LossValue

end
-- ==== Proof.RefRow.lean ====
/-
  What the reference computes, row by row.

  The reference builds the same quantities as whole arrays: the moved mass per row, the two one-hot arrays, the soft
  target, the log-softmax of `x / 2` taken the stable way, and the weighted sum along each row. Read at row `r` (and
  column `k`) each stage is the specification's quantity of that row (`SmoothedLoss`), so the vector of row sums is
  `rowLosses` of the argument arrays (`rows_eq`). Five spellings differ from the kernel's and meet it on the extended
  reals: a comparison's bit read unsigned is the bit widened and read signed; `x / 2 = x · ½` (the divisor is the real
  `2`, the factor the real `½`); `max (−∞) M = M` for a fold of `max` that starts from `−∞`; `−s = 0 − s`; and a sum
  from the initial value `0` is the sum.
-/
import proofs.«177344_j46342697124317_1_alg».proof.Proof.RefRead
import proofs.«177344_j46342697124317_1_alg».proof.Proof.RowLoss
import Idealize.ShloMosaic.Lib.KernelVsHost
import Idealize.ShloMosaic.PureOps.Ideal.Laws
import Mathlib.Data.Finset.Fold
import proofs.«177344_j46342697124317_1_alg».proof.Proof.LibColumnLayout

noncomputable section

namespace Cert.ReferenceIdeal.RowValue

open Idealize.ShloMosaic Idealize.ShloMosaic.ValueIdx Cert.ReferenceIdeal Cert.ReferenceIdeal.Gen Cert.ReferenceIdeal.ReadP Cert.SmoothedLoss

/-! ## The constants that are evaluated, and the scalar laws -/

/-- The reference's divisor is the real `2`. -/
theorem ofBits_two : Ideal.ofBits .f32 0x40000000#32 = ((2 : ℝ) : EReal) := by
  simp [Ideal.ofBits, Ideal.ieee, -EReal.coe_mul]; norm_num

/-- The kernel's factor is the real `½`. -/
theorem ofBits_half : Ideal.ofBits .f32 0x3F000000#32 = ((1 / 2 : ℝ) : EReal) := by
  simp [Ideal.ofBits, Ideal.ieee, -EReal.coe_mul]; norm_num

/-- Dividing by `2` is multiplying by `½`, on every extended real. -/
theorem halve (x : EReal) : Ideal.div x (Ideal.ofBits .f32 0x40000000#32) = x * Ideal.ofBits .f32 0x3F000000#32 := by
  rw [ofBits_two, ofBits_half]
  exact Ideal.div_coe (by norm_num) x

/-- A comparison's bit read unsigned is the bit widened to a word and read signed; and equality of words is symmetric. -/
theorem hot_eq (t : BitVec 32) (k : Fin 1024) :
    FloatOps.uitofp (F := Ideal) .f32 (IntOp.cmpi .eq t (BitVec.ofNat 32 k.val)) = hot t k := by
  unfold hot
  have hc : IntOp.cmpi .eq t (BitVec.ofNat 32 k.val) = IntOp.cmpi .eq (BitVec.ofNat 32 k.val) t := by
    show BitVec.ofBool (t == BitVec.ofNat 32 k.val) = BitVec.ofBool (BitVec.ofNat 32 k.val == t)
    exact congrArg BitVec.ofBool BEq.comm
  rw [hc]
  show (((IntOp.cmpi .eq (BitVec.ofNat 32 k.val) t).toNat : ℝ) : EReal)
      = ((((IntOp.cmpi .eq (BitVec.ofNat 32 k.val) t).setWidth 32).toInt : ℝ) : EReal)
  rw [toInt_setWidth_bit]
  norm_cast

/-- A fold of `max` that starts from `b` is at least `b`. -/
theorem max_fold_self (b : EReal) (f : Fin 1024 → EReal) :
    max b ((Finset.univ : Finset (Fin 1024)).fold max b f) = (Finset.univ : Finset (Fin 1024)).fold max b f :=
  max_eq_right ((Finset.le_fold_max (s := (Finset.univ : Finset (Fin 1024))) (f := f) (b := b) (c := b)).mpr (Or.inl le_rfl))

variable (x0 : (⟨S32768x1024, .f32⟩ : BufTy).Contents (Elt Ideal)) (x1 x2 : (⟨S32768, .i32⟩ : BufTy).Contents (Elt Ideal))
  (x3 : (⟨S1024, .f32⟩ : BufTy).Contents (Elt Ideal))

/-! ## Where the broadcasts read their operands -/

theorem at_row (r : Fin 32768) (u : Fin 1) (f : S32768x1.Idx → S32768.Idx)
    (hf : ∀ i : S32768x1.Idx, (f i 0).val = (i 0).val) : f (ix2 r u) = ix1 r := by
  funext a
  match a with
  | ⟨0, _⟩ => exact Fin.ext (hf _)

theorem at_col (r : Fin 32768) (k : Fin 1024) (f : S32768x1024.Idx → S32768x1.Idx)
    (h0 : ∀ i : S32768x1024.Idx, (f i 0).val = (i 0).val) : f (ix2 r k) = ix2 r (0 : Fin 1) := by
  funext a
  match a with
  | ⟨0, _⟩ => exact Fin.ext (h0 _)
  | ⟨1, _⟩ => exact Fin.ext (by have h1 : (f (ix2 r k) 1).val < 1 := (f (ix2 r k) 1).isLt; show (f (ix2 r k) 1).val = 0; omega)

/-! ## The stages at a row -/

/-- The moved mass of row `r`. -/
theorem moved_apply (r : Fin 32768) : val_main_v10 (F := Ideal) x2 (ix1 r) = moved (x2 (ix1 r)) := by
  simp only [val_main_v10_apply, val_main_v5_apply, val_main_v2_apply, val_main_v4_apply, val_main_v0_apply, val_main_v1_apply,
    val_main_v3_apply, val_main_cst_apply, val_main_cst_0_apply, val_main_v9_apply, val_main_v7_apply, val_main_v6_apply,
    val_main_cst_1_apply, val_main_v8_apply, val_main_cst_2_apply, val_main_call0_v1_apply, val_main_call0_v0_apply,
    val_main_cst_3_apply]
  rfl

/-- The one-hot array of the class words at `(r, k)`. -/
theorem hot_apply (r : Fin 32768) (k : Fin 1024) : val_main_v11 (F := Ideal) x1 (ix2 r k) = hot (x1 (ix1 r)) k := by
  rw [val_main_v11_apply, val_main_call1_v4_apply, val_main_call1_v2_apply, val_main_call1_v0_apply, val_main_call1_v3_apply,
    val_main_call1_v1_apply]
  rw [at_col r k idx_main_call1_v2 (fun _ => rfl), at_row r 0 idx_main_call1_v0 (fun _ => rfl)]
  exact hot_eq (x1 (ix1 r)) k

/-- The one-hot array of the next class at `(r, k)`. -/
theorem hotNext_apply (r : Fin 32768) (k : Fin 1024) :
    val_main_v14 (F := Ideal) x1 (ix2 r k) = hot (IntOp.addi (x1 (ix1 r)) 1#32) k := by
  rw [val_main_v14_apply, val_main_call2_v4_apply, val_main_call2_v2_apply, val_main_call2_v0_apply, val_main_call2_v3_apply,
    val_main_call2_v1_apply, val_main_v13_apply, val_main_v12_apply, val_main_c_apply]
  rw [at_col r k idx_main_call2_v2 (fun _ => rfl), at_row r 0 idx_main_call2_v0 (fun _ => rfl)]
  exact hot_eq (IntOp.addi (x1 (ix1 r)) 1#32) k

/-- The soft target at `(r, k)`. -/
theorem soft_apply (r : Fin 32768) (k : Fin 1024) :
    val_main_v23 (F := Ideal) x1 x2 (ix2 r k) = soft (x1 (ix1 r)) (x2 (ix1 r)) k := by
  rw [val_main_v23_apply, val_main_v19_apply, val_main_v22_apply, val_main_v18_apply, val_main_v17_apply, val_main_v16_apply,
    val_main_cst_4_apply, val_main_v15_apply, val_main_v21_apply, val_main_v20_apply, hot_apply, hotNext_apply]
  rw [at_col r k idx_main_v18 (fun _ => rfl), at_row r 0 idx_main_v15 (fun _ => rfl),
    at_col r k idx_main_v21 (fun _ => rfl), at_row r 0 idx_main_v20 (fun _ => rfl), moved_apply]
  rfl

/-- The halved logits at `(r, k)`. -/
theorem scaled_apply (r : Fin 32768) (k : Fin 1024) :
    val_main_v25 (F := Ideal) x0 (ix2 r k) = scaled (fun k => x0 (ix2 r k)) k := by
  rw [val_main_v25_apply, val_main_v24_apply, val_main_cst_5_apply]
  exact halve _

/-- The row's largest halved logit, as the reference takes it: the maximum along the row from `−∞`, then `max` with `−∞`. -/
theorem top_apply (r : Fin 32768) : val_main_call3_v2 (F := Ideal) x0 (ix1 r) = top (fun k => x0 (ix2 r k)) := by
  rw [val_main_call3_v2_apply, val_main_call3_v1_apply, val_main_call3_cst_0_apply]
  have hfold : val_main_call3_v0 (F := Ideal) x0 (ix1 r)
      = (Finset.univ : Finset (Fin 1024)).fold max (Ideal.ofBits .f32 0xFF800000#32) (fun k => val_main_v25 (F := Ideal) x0 (ix2 r k)) := by
    unfold val_main_call3_v0
    refine (Host.reduce_eq_fold_single (FloatOps.maximumf (F := Ideal) (φ := .f32)) (val_main_v25 (F := Ideal) x0)
      (val_main_call3_cst (F := Ideal)) reducesTo_S32768x1024_S32768_d1 (by decide) h_S_ (ix1 r)).trans ?_
    refine congrArg (fun f => (Finset.univ : Finset (Fin 1024)).fold max (Ideal.ofBits .f32 0xFF800000#32) f) (funext fun k => ?_)
    exact congrArg (val_main_v25 (F := Ideal) x0) (lift_row _ r k)
  rw [hfold]
  show max (Ideal.ofBits .f32 0xFF800000#32) _ = _
  rw [max_fold_self]
  unfold top
  exact congrArg (fun f => (Finset.univ : Finset (Fin 1024)).fold max (Ideal.ofBits .f32 0xFF800000#32) f)
    (funext fun k => scaled_apply x0 r k)

/-- A halved logit less the row's largest, at `(r, k)`. -/
theorem shifted_apply (r : Fin 32768) (k : Fin 1024) :
    val_main_call3_v5 (F := Ideal) x0 (ix2 r k) = shifted (fun k => x0 (ix2 r k)) k := by
  rw [val_main_call3_v5_apply, val_main_call3_v4_apply, val_main_call3_v3_apply, scaled_apply]
  rw [at_col r k idx_main_call3_v4 (fun _ => rfl), at_row r 0 idx_main_call3_v3 (fun _ => rfl), top_apply]
  rfl

/-- The softmax's denominator of row `r`. -/
theorem mass_apply (r : Fin 32768) : val_main_call3_v7 (F := Ideal) x0 (ix1 r) = mass (fun k => x0 (ix2 r k)) := by
  rw [val_main_call3_v7_apply, val_main_call3_cst_1_apply]
  show Ideal.ofBits .f32 0x00000000#32 + _ = _
  rw [Ideal.ofBits_zero_f32, zero_add]
  unfold mass
  refine Finset.sum_congr rfl fun k _ => ?_
  rw [val_main_call3_v6_apply,
    show idx_main_call3_v7 (ix1 r) k = ix2 r k from funext fun a => by match a with | ⟨0, _⟩ => rfl | ⟨1, _⟩ => rfl,
    shifted_apply]
  rfl

/-- The log-softmax at `(r, k)`. -/
theorem logp_apply (r : Fin 32768) (k : Fin 1024) :
    val_main_v26 (F := Ideal) x0 (ix2 r k) = logp (fun k => x0 (ix2 r k)) k := by
  rw [val_main_v26_apply, val_main_call3_v10_apply, val_main_call3_v9_apply, val_main_call3_v8_apply, shifted_apply]
  rw [at_col r k idx_main_call3_v10 (fun _ => rfl), at_row r 0 idx_main_call3_v8 (fun _ => rfl), mass_apply]
  rfl

/-- The summand of row `r` at column `k`. -/
theorem term_apply (r : Fin 32768) (k : Fin 1024) :
    val_main_v31 (F := Ideal) x0 x1 x2 x3 (ix2 r k)
      = ((Ideal.ofBits .f32 0x00000000#32 - soft (x1 (ix1 r)) (x2 (ix1 r)) k) * logp (fun k => x0 (ix2 r k)) k) * x3 (ix1 k) := by
  rw [val_main_v31_apply, val_main_v28_apply, val_main_v27_apply, val_main_v30_apply, val_main_v29_apply, soft_apply, logp_apply]
  rw [show idx_main_v29 (idx_main_v30 (ix2 r k)) = ix1 k from funext fun a => by match a with | ⟨0, _⟩ => rfl]
  show (-(soft (x1 (ix1 r)) (x2 (ix1 r)) k)) * _ * _ = _
  rw [Ideal.ofBits_zero_f32, zero_sub]

/-- THE ROW SUMS are the rows' losses. -/
theorem rows_eq : val_main_v32 (F := Ideal) x0 x1 x2 x3 = rowLosses x0 x1 x2 x3 := by
  funext i
  obtain ⟨r, rfl⟩ : ∃ r : Fin 32768, i = ix1 r := ⟨i 0, eq_ix1 i⟩
  rw [val_main_v32_apply, val_main_cst_6_apply]
  show Ideal.ofBits .f32 0x00000000#32 + _ = _
  rw [Ideal.ofBits_zero_f32, zero_add]
  unfold rowLosses rowLoss
  refine Finset.sum_congr rfl fun k _ => ?_
  rw [show idx_main_v32 (ix1 r) k = ix2 r k from funext fun a => by match a with | ⟨0, _⟩ => rfl | ⟨1, _⟩ => rfl, term_apply]

/-- THE RESULT: the rows' losses summed from `0` and divided by `32768`. -/
theorem result_eq : val_main_v34 (F := Ideal) x0 x1 x2 x3
    = Host.divf (F := Ideal) (Host.reduceAdd (F := Ideal) (rowLosses x0 x1 x2 x3) (constant (F := Ideal) S_ .f32 0x00000000#32) reducesTo_S32768_S_d0 h_S_)
        (constant (F := Ideal) S_ .f32 0x47000000#32) := by
  unfold val_main_v34 val_main_v33
  rw [rows_eq]
  rfl

end Cert.ReferenceIdeal.RowValue

end
-- ==== Proof.lean ====
/- The proof of `Cert.Claim`: the three frames, `preserves` and `algebraic` of a label-smoothed, temperature-2 cross-entropy
   loss, a 32-point row-blocked kernel against its whole-array reference.

   Both programs compute, for each of the 32768 rows, the same extended real: the weighted cross-entropy
   `∑_k ((0 − soft k) · logp k) · w k` of the row's soft target against the log-softmax of its halved logits
   (`SmoothedLoss.rowLoss`, Proof/RowLoss.lean), and return the rows' sum from `0` divided by `32768`. The kernel's side is
   Proof/KernelRow.lean (what the body stores, row by row) and Proof/KernelValue.lean (the blocks tile the result column;
   the casts around the region; the run); the reference's side is its run (Proof/RefRun.lean) read one operation at a
   time (Proof/RefRead.lean) and Proof/RefRow.lean (each stage at a row is the specification's quantity). The two spell
   five things differently — a comparison's bit read unsigned or widened and read signed, `x / 2` or `x · ½`, a second
   `max` with `−∞`, `−s` or `0 − s`, a sum's initial `0` — and each pair is one value on the extended reals, with no
   appeal to the inputs' finiteness. The ideal pass rewrote nothing, so `preserves` is `True`. -/
import proofs.«177344_j46342697124317_1_alg».proof.Defs
import proofs.«177344_j46342697124317_1_alg».proof.Proof.Gen.Kernel
import proofs.«177344_j46342697124317_1_alg».proof.Proof.Gen.Kernel.Skeleton
import proofs.«177344_j46342697124317_1_alg».proof.Proof.Gen.Kernel.Launch
import proofs.«177344_j46342697124317_1_alg».proof.Proof.Gen.Kernel.Points
import proofs.«177344_j46342697124317_1_alg».proof.Proof.Gen.Kernel.Frame
import proofs.«177344_j46342697124317_1_alg».proof.Proof.Gen.KernelIdeal
import proofs.«177344_j46342697124317_1_alg».proof.Proof.Gen.KernelIdeal.Skeleton
import proofs.«177344_j46342697124317_1_alg».proof.Proof.Gen.KernelIdeal.Launch
import proofs.«177344_j46342697124317_1_alg».proof.Proof.Gen.KernelIdeal.Points
import proofs.«177344_j46342697124317_1_alg».proof.Proof.Gen.KernelIdeal.Frame
import proofs.«177344_j46342697124317_1_alg».proof.Proof.Gen.ReferenceIdeal
import proofs.«177344_j46342697124317_1_alg».proof.Proof.Gen.Pre_finite_inputs
import proofs.«177344_j46342697124317_1_alg».proof.Proof.KernelValue
import proofs.«177344_j46342697124317_1_alg».proof.Proof.RefRun
import proofs.«177344_j46342697124317_1_alg».proof.Proof.RefRead
import proofs.«177344_j46342697124317_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end at the mean of the rows' losses of their (agreeing) arguments. -/
theorem algebraic : Cert.algebraic_KernelIdeal_ReferenceIdeal := by
  intro m ρ m' ρ' _ hagree
  refine ⟨_, Cert.KernelIdeal.LossValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v34_eq, (hagree c).1, (hagree c).2.1, (hagree c).2.2.1, (hagree c).2.2.2,
    Cert.ReferenceIdeal.RowValue.result_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
